-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S16x512 : Shape := ⟨2, ![16, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x512x512 .f32) (main_arg1 : IVec S16x512 32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  main_v3
-- ==== Kernel.lean ====
abbrev S16x512x512 : Shape := ⟨3, ![16, 512, 512]⟩
abbrev S16x512 : Shape := ⟨2, ![16, 512]⟩
abbrev S_ : Shape := ⟨0, ![]⟩
abbrev S16x1x512 : Shape := ⟨3, ![16, 1, 512]⟩
abbrev S16x4096x512 : Shape := ⟨3, ![16, 4096, 512]⟩
abbrev S1x1x512 : Shape := ⟨3, ![1, 1, 512]⟩
abbrev S1x512x512 : Shape := ⟨3, ![1, 512, 512]⟩
abbrev S1x1024x512 : Shape := ⟨3, ![1, 1024, 512]⟩
abbrev S512 : Shape := ⟨1, ![512]⟩
abbrev S1024x512 : Shape := ⟨2, ![1024, 512]⟩
abbrev S1x512 : Shape := ⟨2, ![1, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S16x512x512, .f32⟩
  | .hbm, ⟨1, _⟩ => ⟨S16x512, .i32⟩
  | .hbm, ⟨2, _⟩ => ⟨S_, .i32⟩
  | .hbm, ⟨3, _⟩ => ⟨S_, .i32⟩
  | .hbm, ⟨4, _⟩ => ⟨S16x512, .i32⟩
  | .hbm, ⟨5, _⟩ => ⟨S16x512, .i32⟩
  | .hbm, ⟨6, _⟩ => ⟨S16x1x512, .i32⟩
  | .hbm, ⟨7, _⟩ => ⟨S16x1x512, .i32⟩
  | .hbm, ⟨8, _⟩ => ⟨S16x4096x512, .f32⟩
  | .hbm, ⟨9, _⟩ => ⟨S16x4096x512, .f32⟩
  | .local _ .vmem, ⟨0, _⟩ => ⟨S1x1x512, .i32⟩
  | .local _ .vmem, ⟨1, _⟩ => ⟨S1x1x512, .i32⟩
  | .local _ .vmem, ⟨2, _⟩ => ⟨S1x1x512, .i32⟩
  | .local _ .vmem, ⟨3, _⟩ => ⟨S1x1x512, .i32⟩
  | .local _ .vmem, ⟨4, _⟩ => ⟨S1x512x512, .f32⟩
  | .local _ .vmem, ⟨5, _⟩ => ⟨S1x512x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S16x512_S16x1x512_0_2 : S16x512.BroadcastsInDim S16x1x512 (![0, 2] : Fin 2 → Fin S16x1x512.rank)
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  iota_S1024x512_d0_w32 : S1024x512.Iotas .tc 32 [0]
  shapeCasts_S512_S1x512 : S512.ShapeCasts S1x512
  broadcasts_S1x512_S1024x512 : S1x512.Broadcasts S1024x512
  natLt_1_32 : 1 < 32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S16x1x512.size a
  hwx0_0 : ∀ i : grid0.Coords, EltTy.bits .i32 = 32 ∨ (Rect.block (s := S16x1x512) S1x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .i32 = 32 ∨ (Rect.block (s := S16x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x512x512.size a
  hwx0_2 : ∀ i : grid0.Coords, EltTy.bits .f32 = 32 ∨ (Rect.block (s := S16x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S16x4096x512.size a
  hwx0_3 : ∀ i : grid0.Coords, EltTy.bits .f32 = 32 ∨ (Rect.block (s := S16x4096x512) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S16x4096x512.size a
  hwx0_4 : ∀ i : grid0.Coords, EltTy.bits .f32 = 32 ∨ (Rect.block (s := S16x4096x512) S1x1024x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v2) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x512x512 : Shape := ⟨3, ![16, 512, 512]⟩
abbrev S16x512 : Shape := ⟨2, ![16, 512]⟩
abbrev S_ : Shape := ⟨0, ![]⟩
abbrev S4096 : Shape := ⟨1, ![4096]⟩
abbrev S1x4096x1 : Shape := ⟨3, ![1, 4096, 1]⟩
abbrev S16x1x512 : Shape := ⟨3, ![16, 1, 512]⟩
abbrev S16x4096x512 : Shape := ⟨3, ![16, 4096, 512]⟩

abbrev nBuf : Space → Nat
  | .hbm => 19
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x512, .i32⟩
  | .hbm, ⟨2, _⟩ => ⟨S_, .i32⟩
  | .hbm, ⟨3, _⟩ => ⟨S_, .i32⟩
  | .hbm, ⟨4, _⟩ => ⟨S16x512, .i32⟩
  | .hbm, ⟨5, _⟩ => ⟨S16x512, .i32⟩
  | .hbm, ⟨6, _⟩ => ⟨S4096, .i32⟩
  | .hbm, ⟨7, _⟩ => ⟨S1x4096x1, .i32⟩
  | .hbm, ⟨8, _⟩ => ⟨S16x1x512, .i32⟩
  | .hbm, ⟨9, _⟩ => ⟨S16x4096x512, .i32⟩
  | .hbm, ⟨10, _⟩ => ⟨S16x4096x512, .i32⟩
  | .hbm, ⟨11, _⟩ => ⟨S16x4096x512, .i1⟩
  | .hbm, ⟨12, _⟩ => ⟨S16x1x512, .i32⟩
  | .hbm, ⟨13, _⟩ => ⟨S16x4096x512, .i32⟩
  | .hbm, ⟨14, _⟩ => ⟨S16x4096x512, .i32⟩
  | .hbm, ⟨15, _⟩ => ⟨S16x4096x512, .i1⟩
  | .hbm, ⟨16, _⟩ => ⟨S16x4096x512, .i1⟩
  | .hbm, ⟨17, _⟩ => ⟨S16x4096x512, .f32⟩
  | .hbm, ⟨18, _⟩ => ⟨S16x4096x512, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S4096_S1x4096x1_1 : S4096.BroadcastsInDim S1x4096x1 (![1] : Fin 1 → Fin S1x4096x1.rank)
  bcast_S16x512_S16x1x512_0_2 : S16x512.BroadcastsInDim S16x1x512 (![0, 2] : Fin 2 → Fin S16x1x512.rank)
  bcast_S1x4096x1_S16x4096x512_0_1_2 : S1x4096x1.BroadcastsInDim S16x4096x512 (![0, 1, 2] : Fin 3 → Fin S16x4096x512.rank)
  bcast_S16x1x512_S16x4096x512_0_1_2 : S16x1x512.BroadcastsInDim S16x4096x512 (![0, 1, 2] : Fin 3 → Fin S16x4096x512.rank)
  dot_S16x4096x512_S16x512x512_S16x4096x512_2_1_1_2_0_0_wf : DotDims.WF S16x4096x512 S16x512x512 S16x4096x512 [2] [1] [1] [2] [0] [0]

variable [Facts₀]

def dot_S16x4096x512_S16x512x512_S16x4096x512_2_1_1_2_0_0 : DotDims S16x4096x512 S16x512x512 S16x4096x512 where
  lhsContracting := [2]
  rhsContracting := [1]
  lhsNonContracting := [1]
  rhsNonContracting := [2]
  lhsBatch := [0]
  rhsBatch := [0]
  wf := dot_S16x4096x512_S16x512x512_S16x4096x512_2_1_1_2_0_0_wf

class Facts : Prop extends Facts₀ where

variable [Facts]
-- ==== Proof.Spec.lean ====
/-
  The length regulator as one function of its arguments.

  From integer durations `ds[b, t]` the program forms `E[b, t]`, the running total of the durations up to and including
  token `t`, and `S[b, t] = E[b, t] - ds[b, t]`, the running total before it (both in 32-bit words, wrapping). Frame `f`
  belongs to token `t` when `S[b, t] ≤ f < E[b, t]` as signed words. The expansion matrix is that test as a number,
  `map[b, f, t] ∈ {0, 1}`, and the regulated sequence is `ys[b, f, d] = Σ_t map[b, f, t] · xs[b, t, d]`.

  This module states the two results over ANY pair of word arrays `S`, `E` (how they come from `ds` is the same host
  computation in both programs and is never opened), and proves the two facts about words that join the kernel's
  spelling to the reference's: the frame number `q · 1024 + r` formed in 32-bit arithmetic is the word of the number
  `q · 1024 + r`, and a bit widened to 32 bits and read signed is the bit read unsigned.
-/
import Idealize.ShloMosaic.Lib.ValueIdx
import Idealize.ShloMosaic.PureOps.Ideal.Laws

noncomputable section

namespace LengthReg

open Idealize.ShloMosaic Idealize.ShloMosaic.ValueIdx

/-- Frame `f` lies in token `t`'s interval `[S, E)` of batch row `b`: the conjunction of the two signed comparisons, one bit. -/
def inToken (S E : IVec ⟨2, ![16, 512]⟩ 32) (b : Fin 16) (f : Fin 4096) (t : Fin 512) : BitVec 1 :=
  IntOp.andi (IntOp.cmpi .sge (BitVec.ofNat 32 f.val) (S (ix2 b t))) (IntOp.cmpi .slt (BitVec.ofNat 32 f.val) (E (ix2 b t)))

/-- The expansion matrix: the membership bit as the number 0 or 1. -/
def expansion (S E : IVec ⟨2, ![16, 512]⟩ 32) : FVec Ideal ⟨3, ![16, 4096, 512]⟩ .f32 :=
  fun j => FloatOps.uitofp .f32 (inToken S E (j 0) (j 1) (j 2))

/-- The regulated sequence: each frame's row of the expansion matrix applied to the token embeddings. -/
def regulated (S E : IVec ⟨2, ![16, 512]⟩ 32) (X : FVec Ideal ⟨3, ![16, 512, 512]⟩ .f32) : FVec Ideal ⟨3, ![16, 4096, 512]⟩ .f32 :=
  fun j => ∑ k : Fin 512, expansion S E (ix3 (j 0) (j 1) k) * X (ix3 (j 0) k (j 2))

theorem expansion_apply (S E : IVec ⟨2, ![16, 512]⟩ 32) (b : Fin 16) (f : Fin 4096) (t : Fin 512) :
    expansion S E (ix3 b f t) = FloatOps.uitofp (F := Ideal) .f32 (inToken S E b f t) := rfl

theorem regulated_apply (S E : IVec ⟨2, ![16, 512]⟩ 32) (X : FVec Ideal ⟨3, ![16, 512, 512]⟩ .f32) (b : Fin 16) (f : Fin 4096) (d : Fin 512) :
    regulated S E X (ix3 b f d) = ∑ k : Fin 512, expansion S E (ix3 b f k) * X (ix3 b k d) := rfl

/-- The frame number of row `r` of the `q`-th tile of 1024 frames, formed in 32-bit words as `q · 1024 + r`, is the word of
    that number: the word of a sum or a product is the sum or product of the words, with no bound asked. -/
theorem frame_word (q r : Nat) :
    IntOp.addi (Scalar.muli (BitVec.ofNat 32 q) 1024#32) (BitVec.ofNat 32 r) = BitVec.ofNat 32 (q * 1024 + r) := by
  show BitVec.ofNat 32 q * BitVec.ofNat 32 1024 + BitVec.ofNat 32 r = _
  rw [← BitVec.ofNat_mul, ← BitVec.ofNat_add]

/-- A bit is 0 or 1. -/
theorem bit_cases (x : BitVec 1) : x = 0#1 ∨ x = 1#1 := by
  revert x; decide

/-- A bit widened with zeros to 32 bits and converted as a SIGNED integer is the bit converted as an UNSIGNED one: both are
    the number 0 or 1. -/
theorem sitofp_extui_bit (x : BitVec 1) :
    FloatOps.sitofp (F := Ideal) .f32 (x.setWidth 32) = FloatOps.uitofp (F := Ideal) .f32 x := by
  rcases bit_cases x with rfl | rfl
  · show (((0#1 : BitVec 1).setWidth 32).toInt : ℝ) = ((((0#1 : BitVec 1).toNat : ℝ) : EReal))
    norm_num
  · show (((1#1 : BitVec 1).setWidth 32).toInt : ℝ) = ((((1#1 : BitVec 1).toNat : ℝ) : EReal))
    norm_num

end LengthReg

end
-- ==== Proof.Views.lean ====
/-
  Re-indexings read at an index given by coordinates, for the shapes this program meets and the library's
  Lib/ValueLayout.lean does not list: a `[1, 1, a]` block viewed as a vector, and the four `broadcast_in_dim`s by which the
  reference lays a frame counter `[F]` and a per-token table `[B, T]` out over `[B, F, T]`.
-/
import Idealize.ShloMosaic.Lib.ValueLayout
import Idealize.ShloMosaic.Lib.ValueIdx

namespace LengthReg

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A counter `[n]` laid along the middle axis of `[1, n, 1]` reads, at `(u, f, u')`, the counter at `f`. -/
theorem bcast_n_1n1_apply {n : ℕ} (x : (⟨1, ![n]⟩ : Shape).Idx → α)
    (h : (⟨1, ![n]⟩ : Shape).BroadcastsInDim ⟨3, ![1, n, 1]⟩ (![1] : Fin 1 → Fin 3)) (u : Fin 1) (f : Fin n) (u' : Fin 1) :
    broadcastInDim ⟨3, ![1, n, 1]⟩ (![1] : Fin 1 → Fin 3) h x (ix3 u f u') = x (ix1 f) := by
  refine broadcastInDim_apply _ h x (ix3 u f u') (ix1 f) fun ax => ?_
  match ax with
  | ⟨0, _⟩ =>
    show f.val = if n = 1 then 0 else f.val
    split
    · have := f.isLt; omega
    · rfl

/-- A table `[a, b]` given a unit middle axis, `[a, 1, b]`, reads, at `(p, u, q)`, the table at `(p, q)`. -/
theorem bcast_ab_a1b_apply {a b : ℕ} (x : (⟨2, ![a, b]⟩ : Shape).Idx → α)
    (h : (⟨2, ![a, b]⟩ : Shape).BroadcastsInDim ⟨3, ![a, 1, b]⟩ (![0, 2] : Fin 2 → Fin 3)) (p : Fin a) (u : Fin 1) (q : Fin b) :
    broadcastInDim ⟨3, ![a, 1, b]⟩ (![0, 2] : Fin 2 → Fin 3) h x (ix3 p u q) = x (ix2 p q) := by
  refine broadcastInDim_apply _ h x (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A `[1, n, 1]` array broadcast over `[a, n, b]` reads, at `(p, f, q)`, the operand at `(0, f, 0)`. -/
theorem bcast_1n1_anb_apply {a n b : ℕ} (x : (⟨3, ![1, n, 1]⟩ : Shape).Idx → α)
    (h : (⟨3, ![1, n, 1]⟩ : Shape).BroadcastsInDim ⟨3, ![a, n, b]⟩ (![0, 1, 2] : Fin 3 → Fin 3)) (p : Fin a) (f : Fin n) (q : Fin b) :
    broadcastInDim ⟨3, ![a, n, b]⟩ (![0, 1, 2] : Fin 3 → Fin 3) h x (ix3 p f q) = x (ix3 (0 : Fin 1) f (0 : Fin 1)) := by
  refine broadcastInDim_apply _ h x (ix3 p f q) (ix3 (0 : Fin 1) f (0 : Fin 1)) fun ax => ?_
  match ax with
  | ⟨0, _⟩ => rfl
  | ⟨1, _⟩ =>
    show f.val = if n = 1 then 0 else f.val
    split
    · have := f.isLt; omega
    · rfl
  | ⟨2, _⟩ => rfl

/-- An `[a, 1, b]` array broadcast over `[a, n, b]` reads, at `(p, f, q)`, the operand at `(p, 0, q)`. -/
theorem bcast_a1b_anb_apply {a n b : ℕ} (x : (⟨3, ![a, 1, b]⟩ : Shape).Idx → α)
    (h : (⟨3, ![a, 1, b]⟩ : Shape).BroadcastsInDim ⟨3, ![a, n, b]⟩ (![0, 1, 2] : Fin 3 → Fin 3)) (p : Fin a) (f : Fin n) (q : Fin b) :
    broadcastInDim ⟨3, ![a, n, b]⟩ (![0, 1, 2] : Fin 3 → Fin 3) h x (ix3 p f q) = x (ix3 p (0 : Fin 1) q) := by
  refine broadcastInDim_apply _ h x (ix3 p f q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

end LengthReg
-- ==== Proof.KernelPayload.lean ====
/-
  What the kernel body stores, entry by entry.

  At the grid point whose second coordinate is `q` (the `q`-th tile of 1024 frames of one batch row) the body holds the
  row's two tables as blocks `x0`, `x1 : [1, 1, 512]` and the row's embeddings `x2 : [1, 512, 512]`. Its mask at `(r, t)`
  compares the frame number `q · 1024 + r` — the tile's base splat over the tile plus the row counter — with `x0[0, 0, t]`
  and `x1[0, 0, t]` (each table a `[1, 1, 512]` block viewed as one row and repeated down the tile), widens the resulting
  bit to a word and converts it. The frame number is the word of `q · 1024 + r`, and the widened bit converted signed is
  the bit converted unsigned: so the entry is the number of the bit "`x0[t] ≤ q · 1024 + r < x1[t]`". The second store is
  the product of the mask with the embeddings accumulated into zero: the sum over tokens of mask times embedding.
-/
import proofs.«178204_j19825569038381_1_alg».proof.Proof.Gen.KernelIdeal.Skeleton
import proofs.«178204_j19825569038381_1_alg».proof.Proof.Spec
import proofs.«178204_j19825569038381_1_alg».proof.Proof.Views
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx LengthReg

/-- The bit "`s ≤ n < e`" on words, as a number: what one entry of the mask is. -/
def maskEntry (n : Nat) (s e : BitVec 32) : EReal :=
  FloatOps.uitofp (F := Ideal) .f32 (IntOp.andi (IntOp.cmpi .sge (BitVec.ofNat 32 n) s) (IntOp.cmpi .slt (BitVec.ofNat 32 n) e))

/-- The mask at row `r` of the tile and token `t`. -/
theorem pay1_apply (i : grid0.Coords) (x0 x1 : Vec Ideal S1x1x512 .i32) (r : Fin 1024) (t : Fin 512) :
    k0_pay1 (F := Ideal) i x0 x1 (ix2 r t)
      = maskEntry ((i 1).val * 1024 + r.val) (x0 (ix3 (0 : Fin 1) (0 : Fin 1) t)) (x1 (ix3 (0 : Fin 1) (0 : Fin 1) t)) := by
  unfold k0_pay1
  show FloatOps.sitofp (F := Ideal) .f32
      ((IntOp.andi
        (IntOp.cmpi .sge
          (IntOp.addi (Scalar.muli (BitVec.ofNat 32 (i 1).val) 1024#32) (iota .tc S1024x512 32 [0] iota_S1024x512_d0_w32 (ix2 r t)))
          (broadcastTo S1024x512 (shapeCast S1x512 (shapeCast S512 x0 shapeCasts_S1x1x512_S512) shapeCasts_S512_S1x512) broadcasts_S1x512_S1024x512 (ix2 r t)))
        (IntOp.cmpi .slt
          (IntOp.addi (Scalar.muli (BitVec.ofNat 32 (i 1).val) 1024#32) (iota .tc S1024x512 32 [0] iota_S1024x512_d0_w32 (ix2 r t)))
          (broadcastTo S1024x512 (shapeCast S1x512 (shapeCast S512 x1 shapeCasts_S1x1x512_S512) shapeCasts_S512_S1x512) broadcasts_S1x512_S1024x512 (ix2 r t)))).setWidth 32) = _
  rw [iota_single_apply, broadcastTo_1b_ab_apply, broadcastTo_1b_ab_apply, shapeCast_a_1a_apply, shapeCast_a_1a_apply,
    shapeCast_11a_a_apply, shapeCast_11a_a_apply, sitofp_extui_bit, frame_word]
  rfl

/-- The first store's value (the mask as a `[1, 1024, 512]` block) at `(u, r, t)`. -/
theorem pay2_apply (i : grid0.Coords) (x0 x1 : Vec Ideal S1x1x512 .i32) (u : Fin 1) (r : Fin 1024) (t : Fin 512) :
    k0_pay2 (F := Ideal) i x0 x1 (ix3 u r t)
      = maskEntry ((i 1).val * 1024 + r.val) (x0 (ix3 (0 : Fin 1) (0 : Fin 1) t)) (x1 (ix3 (0 : Fin 1) (0 : Fin 1) t)) := by
  unfold k0_pay2
  exact (shapeCast_ab_1ab_apply _ _ u r t).trans (pay1_apply i x0 x1 r t)

/-! ## The product's operand indices, axis by axis -/

theorem lhs_mm_0 (j : S1024x512.Idx) (q : dot_S1024x512_S512x512_S1024x512_1_0_0_1_n_n.contr.Idx) :
    (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm_1 (j : S1024x512.Idx) (q : dot_S1024x512_S512x512_S1024x512_1_0_0_1_n_n.contr.Idx) :
    (dot_S1024x512_S512x512_S1024x512_1_0_0_1_n_n.lhsIdx j q 1).val = (q ⟨0, by decide⟩).val :=
  dot_S1024x512_S512x512_S1024x512_1_0_0_1_n_n.lhsIdx_val_of_single rfl j q
theorem rhs_mm_0 (j : S1024x512.Idx) (q : dot_S1024x512_S512x512_S1024x512_1_0_0_1_n_n.contr.Idx) :
    (dot_S1024x512_S512x512_S1024x512_1_0_0_1_n_n.rhsIdx j q 0).val = (q ⟨0, by decide⟩).val :=
  dot_S1024x512_S512x512_S1024x512_1_0_0_1_n_n.rhsIdx_val_of_single rfl j q
theorem rhs_mm_1 (j : S1024x512.Idx) (q : dot_S1024x512_S512x512_S1024x512_1_0_0_1_n_n.contr.Idx) :
    (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The second store's value at `(u, r, d)`: the sum over tokens of the mask's row `r` times the embeddings' column `d`. -/
theorem pay3_apply (i : grid0.Coords) (x0 x1 : Vec Ideal S1x1x512 .i32) (x2 : Vec Ideal S1x512x512 .f32) (u : Fin 1) (r : Fin 1024) (d : Fin 512) :
    k0_pay3 (F := Ideal) i x0 x1 x2 (ix3 u r d)
      = ∑ k : Fin 512, maskEntry ((i 1).val * 1024 + r.val) (x0 (ix3 (0 : Fin 1) (0 : Fin 1) k)) (x1 (ix3 (0 : Fin 1) (0 : Fin 1) k))
          * x2 (ix3 (0 : Fin 1) k d) := by
  unfold k0_pay3
  refine (shapeCast_ab_1ab_apply _ _ u r d).trans ?_
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r d) ((contrEquiv1 dot_S1024x512_S512x512_S1024x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 r d) ((contrEquiv1 dot_S1024x512_S512x512_S1024x512_1_0_0_1_n_n 512 rfl rfl).symm k) = ix2 k d := funext fun a => Fin.ext (by
    match a with
    | ⟨0, _⟩ => exact (rhs_mm_0 _ _).trans hk
    | ⟨1, _⟩ => exact rhs_mm_1 _ _)
  rw [el, er, pay1_apply, shapeCast_1ab_ab_apply]

end Cert.KernelIdeal.Hand

end
-- ==== Proof.KernelValue.lean ====
/-
  The kernel's two result arrays after the run, as functions of the arguments.

  Before the region the host forms `E` and `S` from the durations and gives each a unit middle axis, `[16, 1, 512]`. Grid
  point `t = (b, q)` stages row `b` of each (`[1, 1, 512]`) and of the embeddings (`[1, 512, 512]`) and writes back block
  `(b, q, 0)` of each result, `[1, 1024, 512]`. So entry `(u, r, x)` of what the point writes sits at `(b, q · 1024 + r, x)`
  of the array, the staged tables read `S[b, ·]` and `E[b, ·]`, and the body's entries (the payload lemmas) are the
  specification's there. The 64 blocks tile each array, so each array ends as the specification's function whole.
-/
import proofs.«178204_j19825569038381_1_alg».proof.Proof.KernelIdealFrame
import proofs.«178204_j19825569038381_1_alg».proof.Proof.KernelPayload
import Idealize.ShloMosaic.Lib.Pipeline.Value
import Idealize.ShloMosaic.Lib.StableHlo.Run

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx LengthReg
open Idealize.ShloMosaic.Pipeline (Dat)

variable (m : (ℓ : Loc nD τ sig) → Buf (Elt Ideal) ℓ) (ρ : Dev nD → PrngReg)

/-! ## The host's two tables -/

/-- `E`: the running total of the durations along each row, in 32-bit words. -/
def ends (ds : IVec S16x512 32) : IVec S16x512 32 :=
  Host.reduceWindow IntOp.addi ![1, 512] ![1, 1] ![0, 511] ![0, 0] ds (broadcastInDim S_ ![] bcast_S_S_ (constantI S_ 32 0#32))
    reduceWindows_S16x512_S16x512_w1s1p0_0_w512s1p511_0 h_S_

/-- `S = E - ds`: the running total before each token. -/
def starts (ds : IVec S16x512 32) : IVec S16x512 32 := subi (ends ds) ds

/-- The durations as launched on core `c`. -/
abbrev dsOf (c : Dev nD) : IVec S16x512 32 := m ((c : Thread nD τ).loc main_arg1)
/-- The embeddings as launched on core `c`. -/
abbrev xsOf (c : Dev nD) : FVec Ideal S16x512x512 .f32 := m ((c : Thread nD τ).loc main_arg0)

/-- The region finds `S` with a unit middle axis in the first window's array. -/
theorem V_v2 (c : Dev nD) :
    (V m c main_v2 : S16x1x512.Idx → BitVec 32) = broadcastInDim S16x1x512 ![0, 2] bcast_S16x512_S16x1x512_0_2 (starts (dsOf m c)) := by
  dsimp only [V]
  simp only [hostOps0, hostOps0_1, List.flatten_cons, List.flatten_nil, List.append_nil, List.cons_append, List.nil_append]
  after_results
  simp only [StableHlo.TRef.ofBuf, StableHlo.TRef.toBuf, cast_eq]
  rfl

/-- The region finds `E` with a unit middle axis in the second window's array. -/
theorem V_v3 (c : Dev nD) :
    (V m c main_v3 : S16x1x512.Idx → BitVec 32) = broadcastInDim S16x1x512 ![0, 2] bcast_S16x512_S16x1x512_0_2 (ends (dsOf m c)) := by
  dsimp only [V]
  simp only [hostOps0, hostOps0_1, List.flatten_cons, List.flatten_nil, List.append_nil, List.cons_append, List.nil_append]
  after_results
  simp only [StableHlo.TRef.ofBuf, StableHlo.TRef.toBuf, cast_eq]
  rfl

/-! ## The index maps over the grid -/

theorem hz3 : (![0, 0, 0] : Fin 3 → Nat) = fun _ => 0 := funext fun a => by fin_cases a <;> rfl

/-- The printed index maps, decided over the 64 points: the three inputs sit at block `(b, 0, 0)` where the outputs sit at
    `(b, q, 0)`; `q` is the point's second grid coordinate; `b < 16`, `q < 4`. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (1 : Fin 3) = (grid0.coords t (1 : Fin 2)).val ∧ win0_4.index t (2 : Fin 3) = 0
    ∧ win0_4.index t (0 : Fin 3) ≤ 15 ∧ win0_4.index t (1 : Fin 3) ≤ 3 ∧ True :=
  (by decide +kernel : ∀ t : Fin grid0.N, _)

/-- Every block `(b, q, 0)` is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- The batch row point `t` works on. -/
def rowOf (t : Fin cfg0.N) : Fin 16 := ⟨win0_4.index t (0 : Fin 3), by have := (idx_facts t).2.2.2.2.2.2.2.2.2.2.2.2.2.2.1; omega⟩

/-- The frame that row `r` of point `t`'s tile is. -/
def frameOf (t : Fin cfg0.N) (r : Fin 1024) : Fin 4096 :=
  ⟨win0_4.index t (1 : Fin 3) * 1024 + r.val, by have := (idx_facts t).2.2.2.2.2.2.2.2.2.2.2.2.2.2.2.1; omega⟩

/-! ## The staged blocks -/

/-- The first window's block at point `t` reads `S` at the point's row. -/
theorem iblk0_apply (c : Dev nD) (t : Fin cfg0.N) (x : Fin 512) :
    iblk m c 0 t (ix3 (0 : Fin 1) (0 : Fin 1) x) = starts (dsOf m c) (ix2 (rowOf t) x) := by
  show V m c main_v2 (((cfg0.win 0).blk t).view.emb (ix3 (0 : Fin 1) (0 : Fin 1) x)) = _
  have he : ((cfg0.win 0).blk t).view.emb (ix3 (0 : Fin 1) (0 : Fin 1) x) = ix3 (rowOf t) (0 : Fin 1) x := by
    obtain ⟨e00, e01, e02, -⟩ := idx_facts t
    funext a; apply Fin.ext
    match a with
    | ⟨0, _⟩ => show win0_0.index t (0 : Fin 3) * 1 + 1 * 0 = win0_4.index t (0 : Fin 3); omega
    | ⟨1, _⟩ => show win0_0.index t (1 : Fin 3) * 1 + 1 * 0 = 0; omega
    | ⟨2, _⟩ => show win0_0.index t (2 : Fin 3) * 512 + 1 * x.val = x.val; omega
  rw [he, V_v2]
  exact bcast_ab_a1b_apply _ _ (rowOf t) 0 x

/-- The second window's block at point `t` reads `E` at the point's row. -/
theorem iblk1_apply (c : Dev nD) (t : Fin cfg0.N) (x : Fin 512) :
    iblk m c 1 t (ix3 (0 : Fin 1) (0 : Fin 1) x) = ends (dsOf m c) (ix2 (rowOf t) x) := by
  show V m c main_v3 (((cfg0.win 1).blk t).view.emb (ix3 (0 : Fin 1) (0 : Fin 1) x)) = _
  have he : ((cfg0.win 1).blk t).view.emb (ix3 (0 : Fin 1) (0 : Fin 1) x) = ix3 (rowOf t) (0 : Fin 1) x := by
    obtain ⟨-, -, -, e10, e11, e12, -⟩ := idx_facts t
    funext a; apply Fin.ext
    match a with
    | ⟨0, _⟩ => show win0_1.index t (0 : Fin 3) * 1 + 1 * 0 = win0_4.index t (0 : Fin 3); omega
    | ⟨1, _⟩ => show win0_1.index t (1 : Fin 3) * 1 + 1 * 0 = 0; omega
    | ⟨2, _⟩ => show win0_1.index t (2 : Fin 3) * 512 + 1 * x.val = x.val; omega
  rw [he, V_v3]
  exact bcast_ab_a1b_apply _ _ (rowOf t) 0 x

/-- The third window's block at point `t` reads the embeddings of the point's row. -/
theorem iblk2_apply (c : Dev nD) (t : Fin cfg0.N) (k : Fin 512) (d : Fin 512) :
    iblk m c 2 t (ix3 (0 : Fin 1) k d) = xsOf m c (ix3 (rowOf t) k d) := by
  show V m c main_arg0 (((cfg0.win 2).blk t).view.emb (ix3 (0 : Fin 1) k d)) = _
  have he : ((cfg0.win 2).blk t).view.emb (ix3 (0 : Fin 1) k d) = ix3 (rowOf t) k d := by
    obtain ⟨-, -, -, -, -, -, e20, e21, e22, -⟩ := idx_facts t
    funext a; apply Fin.ext
    match a with
    | ⟨0, _⟩ => show win0_2.index t (0 : Fin 3) * 1 + 1 * 0 = win0_4.index t (0 : Fin 3); omega
    | ⟨1, _⟩ => show win0_2.index t (1 : Fin 3) * 512 + 1 * k.val = k.val; omega
    | ⟨2, _⟩ => show win0_2.index t (2 : Fin 3) * 512 + 1 * d.val = d.val; omega
  rw [he, V_main_arg0]

/-- One entry of the body's mask at point `t` is the expansion matrix's entry at the point's row and the row's frame. -/
theorem maskEntry_eq (c : Dev nD) (t : Fin cfg0.N) (r : Fin 1024) (x : Fin 512) :
    maskEntry ((grid0.coords t (1 : Fin 2)).val * 1024 + r.val) (iblk m c 0 t (ix3 (0 : Fin 1) (0 : Fin 1) x)) (iblk m c 1 t (ix3 (0 : Fin 1) (0 : Fin 1) x))
      = expansion (starts (dsOf m c)) (ends (dsOf m c)) (ix3 (rowOf t) (frameOf t r) x) := by
  rw [iblk0_apply, iblk1_apply, expansion_apply]
  have e41 := (idx_facts t).2.2.2.2.2.2.2.2.2.2.2.2.1
  show maskEntry ((grid0.coords t (1 : Fin 2)).val * 1024 + r.val) _ _ = maskEntry (win0_4.index t (1 : Fin 3) * 1024 + r.val) _ _
  rw [e41]

/-! ## Output window 4: the expansion matrix -/

/-- An index of the array is in point `t`'s block iff each coordinate is in the block's range on its axis. -/
theorem mem_blk4 (t : Fin cfg0.N) (i : S16x4096x512.Idx) :
    i ∈ ((cfg0.win 4).blk t).view.set ↔ ∀ a : Fin 3, win0_4.index t a * S1x1024x512.size a ≤ (i a).val ∧ (i a).val < win0_4.index t a * S1x1024x512.size a + S1x1024x512.size a := by
  show i ∈ ((View.whole main_v4_1).slice (win0_4.rect t)).set ↔ _
  rw [View.set_slice_whole, Rect.mem_set_unit]
  exact Iff.rfl

/-- Every index of the array lies in some point's block: the blocks `[1, 1024, 512]` at `(b, q, 0)` tile `[16, 4096, 512]`. -/
theorem cover4 (i : S16x4096x512.Idx) : ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 512 := (i 2).isLt
  obtain ⟨t, ht⟩ := idx_onto ⟨(i 0).val, hi0⟩ ⟨(i 1).val / 1024, by omega⟩
  obtain ⟨-, -, -, -, -, -, -, -, -, e30, e31, e32, -, -, -, -, -⟩ := idx_facts t
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

/-- An element `(u, r, x)` of point `t`'s block sits in the array at `(b, q · 1024 + r, x)`. -/
theorem emb4 (t : Fin cfg0.N) (u : Fin 1) (r : Fin 1024) (x : Fin 512) :
    ((cfg0.win 4).blk t).view.emb (ix3 u r x) = ix3 (rowOf t) (frameOf t r) x := by
  obtain ⟨-, -, -, -, -, -, -, -, -, e30, e31, e32, -, e42, -, -, -⟩ := idx_facts t
  have hu : u.val = 0 := by omega
  funext a; apply Fin.ext
  match a with
  | ⟨0, _⟩ => show win0_4.index t (0 : Fin 3) * 1 + 1 * u.val = win0_4.index t (0 : Fin 3); omega
  | ⟨1, _⟩ => show win0_4.index t (1 : Fin 3) * 1024 + 1 * r.val = win0_4.index t (1 : Fin 3) * 1024 + r.val; omega
  | ⟨2, _⟩ => show win0_4.index t (2 : Fin 3) * 512 + 1 * x.val = x.val; omega

/-- WHAT POINT `t` WRITES BACK to the second result is its block of the expansion matrix. -/
theorem flushed4_eq (c : Dev nD) (t : Fin cfg0.N) :
    (dats m 0 c).flushed 4 t = ((cfg0.win 4).blk t).view.read (Elt Ideal) (expansion (starts (dsOf m c)) (ends (dsOf m c))) := by
  show (cfg0.win 4).cut (grid0.coords t) ((dats m 0 c).after 4 t) = _
  rw [after0_4]
  unfold out0_4
  rw [View.canon_unit_zero hz3]
  simp only [View.ld_unit_zero (S := S1x1x512) hz3]
  funext j
  obtain ⟨u, r, x, rfl⟩ : ∃ (u : Fin 1) (r : Fin 1024) (x : Fin 512), j = ix3 u r x := ⟨j 0, j 1, j 2, eq_ix3 j⟩
  show k0_pay2 (F := Ideal) (grid0.coords t) (iblk m c 0 t) (iblk m c 1 t) (ix3 u r x)
    = expansion (starts (dsOf m c)) (ends (dsOf m c)) (((cfg0.win 4).blk t).view.emb (ix3 u r x))
  rw [emb4]
  exact (pay2_apply (grid0.coords t) (iblk m c 0 t) (iblk m c 1 t) u r x).trans (maskEntry_eq m c t r x)

/-- The second result after the run is the expansion matrix. -/
theorem final4 (c : Dev nD) : (dats m 0 c).arrAt 4 cfg0.N = expansion (starts (dsOf m c)) (ends (dsOf m c)) :=
  (dats m 0 c).arrAt_eq_of_cover 4 _ (fun t _ => flushed4_eq m c t) cover4

/-! ## Output window 3: the regulated sequence -/

/-- An index of the array is in point `t`'s block iff each coordinate is in the block's range on its axis. -/
theorem mem_blk3 (t : Fin cfg0.N) (i : S16x4096x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v4_0).slice (win0_3.rect t)).set ↔ _
  rw [View.set_slice_whole, Rect.mem_set_unit]
  exact Iff.rfl

/-- Every index of the array lies in some point's block: the blocks `[1, 1024, 512]` at `(b, q, 0)` tile `[16, 4096, 512]`. -/
theorem cover3 (i : S16x4096x512.Idx) : ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 512 := (i 2).isLt
  obtain ⟨t, ht⟩ := idx_onto ⟨(i 0).val, hi0⟩ ⟨(i 1).val / 1024, by omega⟩
  obtain ⟨-, -, -, -, -, -, -, -, -, e30, e31, e32, -, -, -, -, -⟩ := idx_facts t
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- An element `(u, r, x)` of point `t`'s block sits in the array at `(b, q · 1024 + r, x)`. -/
theorem emb3 (t : Fin cfg0.N) (u : Fin 1) (r : Fin 1024) (x : Fin 512) :
    ((cfg0.win 3).blk t).view.emb (ix3 u r x) = ix3 (rowOf t) (frameOf t r) x := by
  obtain ⟨-, -, -, -, -, -, -, -, -, e30, e31, e32, -, e42, -, -, -⟩ := idx_facts t
  have hu : u.val = 0 := by omega
  funext a; apply Fin.ext
  match a with
  | ⟨0, _⟩ => show win0_3.index t (0 : Fin 3) * 1 + 1 * u.val = win0_4.index t (0 : Fin 3); omega
  | ⟨1, _⟩ => show win0_3.index t (1 : Fin 3) * 1024 + 1 * r.val = win0_4.index t (1 : Fin 3) * 1024 + r.val; omega
  | ⟨2, _⟩ => show win0_3.index t (2 : Fin 3) * 512 + 1 * x.val = x.val; omega

/-- WHAT POINT `t` WRITES BACK to the first result is its block of the regulated sequence. -/
theorem flushed3_eq (c : Dev nD) (t : Fin cfg0.N) :
    (dats m 0 c).flushed 3 t = ((cfg0.win 3).blk t).view.read (Elt Ideal) (regulated (starts (dsOf m c)) (ends (dsOf m c)) (xsOf m c)) := by
  show (cfg0.win 3).cut (grid0.coords t) ((dats m 0 c).after 3 t) = _
  rw [after0_3]
  unfold out0_3
  rw [View.canon_unit_zero hz3]
  simp only [View.ld_unit_zero (S := S1x1x512) hz3, View.ld_unit_zero (S := S1x512x512) hz3]
  funext j
  obtain ⟨u, r, d, rfl⟩ : ∃ (u : Fin 1) (r : Fin 1024) (d : Fin 512), j = ix3 u r d := ⟨j 0, j 1, j 2, eq_ix3 j⟩
  show k0_pay3 (F := Ideal) (grid0.coords t) (iblk m c 0 t) (iblk m c 1 t) (iblk m c 2 t) (ix3 u r d)
    = regulated (starts (dsOf m c)) (ends (dsOf m c)) (xsOf m c) (((cfg0.win 3).blk t).view.emb (ix3 u r d))
  rw [emb3, regulated_apply]
  refine (pay3_apply (grid0.coords t) (iblk m c 0 t) (iblk m c 1 t) (iblk m c 2 t) u r d).trans ?_
  refine Finset.sum_congr rfl fun k _ => ?_
  rw [maskEntry_eq, iblk2_apply]

/-- The first result after the run is the regulated sequence. -/
theorem final3 (c : Dev nD) : (dats m 0 c).arrAt 3 cfg0.N = regulated (starts (dsOf m c)) (ends (dsOf m c)) (xsOf m c) :=
  (dats m 0 c).arrAt_eq_of_cover 3 _ (fun t _ => flushed3_eq m c t) cover3

/-! ## The run, read -/

/-- The frame run re-posted: each result array at its function of the arguments, the arguments unchanged. -/
theorem run : θ_run defs (onTc (τ := τ) (main (F := Ideal))) ⟨m, fun _ => 0, ρ⟩ fun r => ∀ c : Dev nD,
      r.2.mem ((c : Thread nD τ).loc main_v4_0) = regulated (starts (dsOf m c)) (ends (dsOf m c)) (xsOf m c)
      ∧ r.2.mem ((c : Thread nD τ).loc main_v4_1) = expansion (starts (dsOf m c)) (ends (dsOf m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final3 m c), ((h c).1 4).trans (final4 m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c)⟩)
    (run_main m ρ)

end Cert.KernelIdeal.Hand

end
-- ==== Proof.RefRun.lean ====
/-
  The reference program read back as a straight line of host operations.

  `reference` computes, from the durations `ds`, the running totals `E` (a windowed sum along each row, the row padded with
  511 zeros in front, so that window `t` holds `ds[b, 0..t]`) and `S = E - ds`; lays a frame counter `0 … 4095` along
  the middle axis and the two tables along the outer axes of `[16, 4096, 512]`; compares; converts the bit to a number (the
  expansion matrix, the second result); and contracts it with the embeddings over the token axis (the first result).
  The running total is computed inside a function the program calls; its three operations are listed here in place, over
  that call's buffers.

  `run`: every weakly fair execution terminates with the two results at these stages of the arguments, the arguments
  unchanged.
-/
import proofs.«178204_j19825569038381_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- `E`: the running total of the durations along each row, in 32-bit words. -/
def ends (ds : IVec S16x512 32) : IVec S16x512 32 :=
  Host.reduceWindow IntOp.addi ![1, 512] ![1, 1] ![0, 511] ![0, 0] ds (broadcastInDim S_ ![] bcast_S_S_ (constantI S_ 32 0#32))
    reduceWindows_S16x512_S16x512_w1s1p0_0_w512s1p511_0 h_S_

/-- `S = E - ds`: the running total before each token. -/
def starts (ds : IVec S16x512 32) : IVec S16x512 32 := subi (ends ds) ds

/-- The frame counter along the middle axis of `[1, 4096, 1]`. -/
def frames : IVec S1x4096x1 32 := broadcastInDim S1x4096x1 ![1] bcast_S4096_S1x4096x1_1 (iotaInDim S4096 32 0)

/-- A per-token table `[16, 512]` laid out over `[16, 4096, 512]`, through `[16, 1, 512]`. -/
def overFrames (x : IVec S16x512 32) : IVec S16x4096x512 32 :=
  broadcastInDim S16x4096x512 ![0, 1, 2] bcast_S16x1x512_S16x4096x512_0_1_2 (broadcastInDim S16x1x512 ![0, 2] bcast_S16x512_S16x1x512_0_2 x)

/-- The frame counter laid out over `[16, 4096, 512]`. -/
def framesAll : IVec S16x4096x512 32 := broadcastInDim S16x4096x512 ![0, 1, 2] bcast_S1x4096x1_S16x4096x512_0_1_2 frames

/-- The membership bit `S ≤ f < E`, every entry. -/
def member (ds : IVec S16x512 32) : IVec S16x4096x512 1 :=
  andi (cmpi .sge framesAll (overFrames (starts ds))) (cmpi .slt framesAll (overFrames (ends ds)))

/-- The expansion matrix: the second result. -/
def mapRef (ds : IVec S16x512 32) : FVec F S16x4096x512 .f32 := uitofp (F := F) .f32 (member ds)

/-- The regulated sequence: the first result. -/
def ysRef (xs : FVec F S16x512x512 .f32) (ds : IVec S16x512 32) : FVec F S16x4096x512 .f32 :=
  Host.dotGeneral dot_S16x4096x512_S16x512x512_S16x4096x512_2_1_1_2_0_0 none (mapRef (F := F) ds) xs

/-! ## The operations -/

/-- @main's 17 operations, in order: the three of the running total's function over its call's buffers, then @main's own. -/
abbrev ops : List (HloOp τ sig (Elt F)) :=
  [ TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_arg1 : TRef sig ⟨S16x512, .i32⟩) (.of main_call0_call0_v0 : TRef sig ⟨S_, .i32⟩) (.of main_v0 : TRef sig ⟨S16x512, .i32⟩) (fun x v => Host.reduceWindow IntOp.addi ![1, 512] ![1, 1] ![0, 511] ![0, 0] x v reduceWindows_S16x512_S16x512_w1s1p0_0_w512s1p511_0 h_S_),
    binary main_v0 main_arg1 main_v1 (subi : (⟨S16x512, .i32⟩ : BufTy).Contents (Elt F) → (⟨S16x512, .i32⟩ : BufTy).Contents (Elt F) → (⟨S16x512, .i32⟩ : BufTy).Contents (Elt F)),
    nullary main_v2 (iotaInDim S4096 32 0),
    unary main_v2 main_v3 (broadcastInDim S1x4096x1 ![1] bcast_S4096_S1x4096x1_1 : (⟨S4096, .i32⟩ : BufTy).Contents (Elt F) → (⟨S1x4096x1, .i32⟩ : BufTy).Contents (Elt F)),
    unary main_v1 main_v4 (broadcastInDim S16x1x512 ![0, 2] bcast_S16x512_S16x1x512_0_2 : (⟨S16x512, .i32⟩ : BufTy).Contents (Elt F) → (⟨S16x1x512, .i32⟩ : BufTy).Contents (Elt F)),
    unary main_v3 main_v5 (broadcastInDim S16x4096x512 ![0, 1, 2] bcast_S1x4096x1_S16x4096x512_0_1_2 : (⟨S1x4096x1, .i32⟩ : BufTy).Contents (Elt F) → (⟨S16x4096x512, .i32⟩ : BufTy).Contents (Elt F)),
    unary main_v4 main_v6 (broadcastInDim S16x4096x512 ![0, 1, 2] bcast_S16x1x512_S16x4096x512_0_1_2 : (⟨S16x1x512, .i32⟩ : BufTy).Contents (Elt F) → (⟨S16x4096x512, .i32⟩ : BufTy).Contents (Elt F)),
    binary main_v5 main_v6 main_v7 (cmpi .sge : (⟨S16x4096x512, .i32⟩ : BufTy).Contents (Elt F) → (⟨S16x4096x512, .i32⟩ : BufTy).Contents (Elt F) → (⟨S16x4096x512, .i1⟩ : BufTy).Contents (Elt F)),
    unary main_v0 main_v8 (broadcastInDim S16x1x512 ![0, 2] bcast_S16x512_S16x1x512_0_2 : (⟨S16x512, .i32⟩ : BufTy).Contents (Elt F) → (⟨S16x1x512, .i32⟩ : BufTy).Contents (Elt F)),
    unary main_v3 main_v9 (broadcastInDim S16x4096x512 ![0, 1, 2] bcast_S1x4096x1_S16x4096x512_0_1_2 : (⟨S1x4096x1, .i32⟩ : BufTy).Contents (Elt F) → (⟨S16x4096x512, .i32⟩ : BufTy).Contents (Elt F)),
    unary main_v8 main_v10 (broadcastInDim S16x4096x512 ![0, 1, 2] bcast_S16x1x512_S16x4096x512_0_1_2 : (⟨S16x1x512, .i32⟩ : BufTy).Contents (Elt F) → (⟨S16x4096x512, .i32⟩ : BufTy).Contents (Elt F)),
    binary main_v9 main_v10 main_v11 (cmpi .slt : (⟨S16x4096x512, .i32⟩ : BufTy).Contents (Elt F) → (⟨S16x4096x512, .i32⟩ : BufTy).Contents (Elt F) → (⟨S16x4096x512, .i1⟩ : BufTy).Contents (Elt F)),
    binary main_v7 main_v11 main_v12 (andi : (⟨S16x4096x512, .i1⟩ : BufTy).Contents (Elt F) → (⟨S16x4096x512, .i1⟩ : BufTy).Contents (Elt F) → (⟨S16x4096x512, .i1⟩ : BufTy).Contents (Elt F)),
    unary main_v12 main_v13 (uitofp .f32 : (⟨S16x4096x512, .i1⟩ : BufTy).Contents (Elt F) → (⟨S16x4096x512, .f32⟩ : BufTy).Contents (Elt F)),
    binary main_v13 main_arg0 main_v14 ((fun l r => Host.dotGeneral dot_S16x4096x512_S16x512x512_S16x4096x512_2_1_1_2_0_0 none l r) : (⟨S16x4096x512, .f32⟩ : BufTy).Contents (Elt F) → (⟨S16x512x512, .f32⟩ : BufTy).Contents (Elt F) → (⟨S16x4096x512, .f32⟩ : BufTy).Contents (Elt F)) ]

/-- @main is that straight line: the called functions' definitions unfolded at the call, both sides are one chain of host
    steps once sequencing is reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., nullary_bufs_sub .., unary_bufs_sub ..,
    unary_bufs_sub .., unary_bufs_sub .., unary_bufs_sub .., binary_bufs_sub .., unary_bufs_sub .., unary_bufs_sub ..,
    unary_bufs_sub .., binary_bufs_sub .., binary_bufs_sub .., unary_bufs_sub .., binary_bufs_sub ..⟩

/-- The fold of the operations at the second result's buffer is the expansion matrix of the durations. -/
theorem map_eq (V : Valuation τ sig (Elt F)) :
    after ops V (main_v13 : DevRef τ sig) = mapRef (F := F) (V (main_arg1 : DevRef τ sig)) := by
  after_results
  simp only [TRef.ofBuf, TRef.toBuf, cast_eq]
  rfl

/-- The fold at the first result's buffer is the regulated sequence of the embeddings and the durations. -/
theorem ys_eq (V : Valuation τ sig (Elt F)) :
    after ops V (main_v14 : DevRef τ sig) = ysRef (F := F) (V (main_arg0 : DevRef τ sig)) (V (main_arg1 : DevRef τ sig)) := by
  after_results
  simp only [TRef.ofBuf, TRef.toBuf, cast_eq]
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

/-- On every device, for any float values, from any memory with zero counters: every weakly fair execution of @main
    terminates with the first result at the regulated sequence and the second at the expansion matrix of the arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = ysRef (F := F) (m ((c.tc : Thread nD τ).loc main_arg0)) (m ((c.tc : Thread nD τ).loc main_arg1))
      ∧ r.2.mem ((c.tc : Thread nD τ).loc main_v13) = mapRef (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans (ys_eq _), (h c main_v13).trans (map_eq _),
      (h c main_arg0).trans (arg0_eq _), (h c main_arg1).trans (arg1_eq _)⟩)
    (run_seq scopedRefs_eq scopedSems_eq defs main (fun _ => ops) main_eq (fun _ => ops_sub) m ρ)

end Cert.ReferenceIdeal.Hand

end
-- ==== Proof.RefValue.lean ====
/-
  The reference's two results are the expansion matrix and the regulated sequence of `S` and `E`.

  Entry `(b, f, t)` of the reference's comparison reads the frame counter at `f` (the counter is laid along the middle
  axis, so the other two coordinates do not matter) and the two tables at `(b, t)` (laid along the outer axes, so `f` does
  not matter): it is the membership bit of the specification, and its conversion is the expansion matrix's entry. The
  contraction is over the token axis with the batch axis shared: operand indices `(b, f, k)` and `(b, k, d)` at result
  index `(b, f, d)` and contraction coordinate `k`, which is the specification's sum term by term.
-/
import proofs.«178204_j19825569038381_1_alg».proof.Proof.RefRun
import proofs.«178204_j19825569038381_1_alg».proof.Proof.Spec
import proofs.«178204_j19825569038381_1_alg».proof.Proof.Views

noncomputable section

namespace Cert.ReferenceIdeal.Hand

open Cert.ReferenceIdeal Cert.ReferenceIdeal.Gen Idealize.ShloMosaic Idealize.ShloMosaic.ValueIdx LengthReg

/-- The frame counter over `[16, 4096, 512]` reads the frame's own number. -/
theorem framesAll_apply (b : Fin 16) (f : Fin 4096) (t : Fin 512) : framesAll (ix3 b f t) = BitVec.ofNat 32 f.val := by
  unfold framesAll frames
  exact (bcast_1n1_anb_apply _ _ b f t).trans (bcast_n_1n1_apply _ _ 0 f 0)

/-- A per-token table over `[16, 4096, 512]` reads the table at the batch row and the token. -/
theorem overFrames_apply (x : IVec S16x512 32) (b : Fin 16) (f : Fin 4096) (t : Fin 512) : overFrames x (ix3 b f t) = x (ix2 b t) := by
  unfold overFrames
  exact (bcast_a1b_anb_apply _ _ b f t).trans (bcast_ab_a1b_apply _ _ b 0 t)

/-- The reference's comparison at `(b, f, t)` is the membership bit. -/
theorem member_apply (ds : IVec S16x512 32) (b : Fin 16) (f : Fin 4096) (t : Fin 512) :
    member ds (ix3 b f t) = inToken (starts ds) (ends ds) b f t := by
  show IntOp.andi (IntOp.cmpi .sge (framesAll (ix3 b f t)) (overFrames (starts ds) (ix3 b f t)))
      (IntOp.cmpi .slt (framesAll (ix3 b f t)) (overFrames (ends ds) (ix3 b f t))) = _
  rw [framesAll_apply, overFrames_apply, overFrames_apply]
  rfl

/-- The second result is the expansion matrix. -/
theorem mapRef_eq (ds : IVec S16x512 32) : mapRef (F := Ideal) ds = expansion (starts ds) (ends ds) := by
  funext j
  obtain ⟨b, f, t, rfl⟩ : ∃ (b : Fin 16) (f : Fin 4096) (t : Fin 512), j = ix3 b f t := ⟨j 0, j 1, j 2, eq_ix3 j⟩
  show FloatOps.uitofp (F := Ideal) .f32 (member ds (ix3 b f t)) = _
  rw [member_apply]
  rfl

/-! ## The contraction's operand indices, axis by axis -/

theorem lhs_ys_0 (i : S16x4096x512.Idx) (q : dot_S16x4096x512_S16x512x512_S16x4096x512_2_1_1_2_0_0.contr.Idx) :
    (dot_S16x4096x512_S16x512x512_S16x4096x512_2_1_1_2_0_0.lhsIdx i q 0).val = (i 0).val := by
  unfold DotDims.lhsIdx
  rw [dif_pos (show (0 : Fin S16x4096x512.rank) ∈ dot_S16x4096x512_S16x512x512_S16x4096x512_2_1_1_2_0_0.lhsBatch by decide)]
  rfl
theorem lhs_ys_1 (i : S16x4096x512.Idx) (q : dot_S16x4096x512_S16x512x512_S16x4096x512_2_1_1_2_0_0.contr.Idx) :
    (dot_S16x4096x512_S16x512x512_S16x4096x512_2_1_1_2_0_0.lhsIdx i q 1).val = (i 1).val := by
  unfold DotDims.lhsIdx
  rw [dif_neg (show ¬(1 : Fin S16x4096x512.rank) ∈ dot_S16x4096x512_S16x512x512_S16x4096x512_2_1_1_2_0_0.lhsBatch by decide), dif_pos (show (1 : Fin S16x4096x512.rank) ∈ dot_S16x4096x512_S16x512x512_S16x4096x512_2_1_1_2_0_0.lhsNonContracting by decide)]
  rfl
theorem lhs_ys_2 (i : S16x4096x512.Idx) (q : dot_S16x4096x512_S16x512x512_S16x4096x512_2_1_1_2_0_0.contr.Idx) :
    (dot_S16x4096x512_S16x512x512_S16x4096x512_2_1_1_2_0_0.lhsIdx i q 2).val = (q ⟨0, by decide⟩).val :=
  dot_S16x4096x512_S16x512x512_S16x4096x512_2_1_1_2_0_0.lhsIdx_val_of_single rfl i q
theorem rhs_ys_0 (i : S16x4096x512.Idx) (q : dot_S16x4096x512_S16x512x512_S16x4096x512_2_1_1_2_0_0.contr.Idx) :
    (dot_S16x4096x512_S16x512x512_S16x4096x512_2_1_1_2_0_0.rhsIdx i q 0).val = (i 0).val := by
  unfold DotDims.rhsIdx
  rw [dif_pos (show (0 : Fin S16x512x512.rank) ∈ dot_S16x4096x512_S16x512x512_S16x4096x512_2_1_1_2_0_0.rhsBatch by decide)]
  rfl
theorem rhs_ys_1 (i : S16x4096x512.Idx) (q : dot_S16x4096x512_S16x512x512_S16x4096x512_2_1_1_2_0_0.contr.Idx) :
    (dot_S16x4096x512_S16x512x512_S16x4096x512_2_1_1_2_0_0.rhsIdx i q 1).val = (q ⟨0, by decide⟩).val :=
  dot_S16x4096x512_S16x512x512_S16x4096x512_2_1_1_2_0_0.rhsIdx_val_of_single rfl i q
theorem rhs_ys_2 (i : S16x4096x512.Idx) (q : dot_S16x4096x512_S16x512x512_S16x4096x512_2_1_1_2_0_0.contr.Idx) :
    (dot_S16x4096x512_S16x512x512_S16x4096x512_2_1_1_2_0_0.rhsIdx i q 2).val = (i 2).val := by
  unfold DotDims.rhsIdx
  rw [dif_neg (show ¬(2 : Fin S16x512x512.rank) ∈ dot_S16x4096x512_S16x512x512_S16x4096x512_2_1_1_2_0_0.rhsBatch by decide), dif_pos (show (2 : Fin S16x512x512.rank) ∈ dot_S16x4096x512_S16x512x512_S16x4096x512_2_1_1_2_0_0.rhsNonContracting by decide)]
  rfl

/-- The first result is the regulated sequence. -/
theorem ysRef_eq (xs : FVec Ideal S16x512x512 .f32) (ds : IVec S16x512 32) :
    ysRef (F := Ideal) xs ds = regulated (starts ds) (ends ds) xs := by
  funext j
  obtain ⟨b, f, d, rfl⟩ : ∃ (b : Fin 16) (f : Fin 4096) (d : Fin 512), j = ix3 b f d := ⟨j 0, j 1, j 2, eq_ix3 j⟩
  unfold ysRef
  simp only [Host.dotGeneral]
  rw [Ideal.dotGeneral_apply, ← Equiv.sum_comp (contrEquiv1 dot_S16x4096x512_S16x512x512_S16x4096x512_2_1_1_2_0_0 512 rfl rfl).symm, regulated_apply]
  refine Finset.sum_congr rfl fun k _ => ?_
  have hk := contrEquiv1_symm_val dot_S16x4096x512_S16x512x512_S16x4096x512_2_1_1_2_0_0 512 rfl rfl k
  have el : dot_S16x4096x512_S16x512x512_S16x4096x512_2_1_1_2_0_0.lhsIdx (ix3 b f d) ((contrEquiv1 dot_S16x4096x512_S16x512x512_S16x4096x512_2_1_1_2_0_0 512 rfl rfl).symm k) = ix3 b f k := funext fun a => Fin.ext (by
    match a with
    | ⟨0, _⟩ => exact lhs_ys_0 _ _
    | ⟨1, _⟩ => exact lhs_ys_1 _ _
    | ⟨2, _⟩ => exact (lhs_ys_2 _ _).trans hk)
  have er : dot_S16x4096x512_S16x512x512_S16x4096x512_2_1_1_2_0_0.rhsIdx (ix3 b f d) ((contrEquiv1 dot_S16x4096x512_S16x512x512_S16x4096x512_2_1_1_2_0_0 512 rfl rfl).symm k) = ix3 b k d := funext fun a => Fin.ext (by
    match a with
    | ⟨0, _⟩ => exact rhs_ys_0 _ _
    | ⟨1, _⟩ => exact (rhs_ys_1 _ _).trans hk
    | ⟨2, _⟩ => exact rhs_ys_2 _ _)
  rw [el, er, mapRef_eq]

end Cert.ReferenceIdeal.Hand

end
-- ==== Proof.lean ====
/-
  A length regulator: durations `ds[b, t]` give each token `t` of batch row `b` the frame interval `[S, E)`, `E` the running
  total of the durations through `t` and `S = E - ds` (32-bit words, wrapping); the expansion matrix is the interval test
  as a number, `map[b, f, t] = [S[b, t] ≤ f < E[b, t]]`, and the result is `ys[b, f, d] = Σ_t map[b, f, t] · xs[b, t, d]`.

  The kernel builds the matrix a tile of 1024 frames at a time on the chip and multiplies each tile with the row's
  embeddings; the reference builds the whole matrix on the host and contracts it in one product. Over the extended reals
  both end at the same two arrays:
    • `S` and `E` are one host computation in both programs;
    • the kernel's frame number `q · 1024 + r`, formed in words, is the word of that number, which is the reference's
      frame counter at `f = q · 1024 + r`;
    • the kernel converts the comparison's bit through a 32-bit word read signed, the reference converts the bit read
      unsigned: both give 0 or 1;
    • each is the sum over the 512 tokens of the same products, term by term — no law of the extended reals beyond
      `0 + x = x` is used, so the inputs' finiteness is never opened.
  The frames: the two kernel programs run by the pipeline's frame theorem over the body's run; the reference is a
  straight line of host operations.
-/
import proofs.«178204_j19825569038381_1_alg».proof.Defs
import proofs.«178204_j19825569038381_1_alg».proof.Proof.Gen.Kernel
import proofs.«178204_j19825569038381_1_alg».proof.Proof.Gen.KernelIdeal
import proofs.«178204_j19825569038381_1_alg».proof.Proof.Gen.ReferenceIdeal
import proofs.«178204_j19825569038381_1_alg».proof.Proof.Gen.Pre_finite_inputs
import proofs.«178204_j19825569038381_1_alg».proof.Proof.KernelFrame
import proofs.«178204_j19825569038381_1_alg».proof.Proof.KernelIdealFrame
import proofs.«178204_j19825569038381_1_alg».proof.Proof.KernelValue
import proofs.«178204_j19825569038381_1_alg».proof.Proof.RefRun
import proofs.«178204_j19825569038381_1_alg».proof.Proof.RefValue
import Idealize.ShloMosaic.Adequacy
import Idealize.ShloMosaic.Init

noncomputable section

namespace Cert.Proof

open Idealize.ShloMosaic Idealize.ShloMosaic.TcCoe Idealize.SL.Sem LengthReg

theorem frame_k : Cert.frame_Kernel := fun m ρ _ => Cert.Kernel.GenP.frame m ρ

theorem frame_ki : Cert.frame_KernelIdeal := fun m ρ _ => Cert.KernelIdeal.GenP.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- The running totals are the same windowed sum in both programs. -/
theorem ends_eq (ds : IVec ⟨2, ![16, 512]⟩ 32) : Cert.ReferenceIdeal.Hand.ends ds = Cert.KernelIdeal.Hand.ends ds := rfl

/-- So are the totals before each token. -/
theorem starts_eq (ds : IVec ⟨2, ![16, 512]⟩ 32) : Cert.ReferenceIdeal.Hand.starts ds = Cert.KernelIdeal.Hand.starts ds := rfl

/-- Both programs end at the regulated sequence and the expansion matrix of the (agreeing) arguments. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Hand.run (F := Ideal) m' ρ')
  · rw [Cert.ReferenceIdeal.Hand.ysRef_eq, (hagree c).1, (hagree c).2, starts_eq, ends_eq]
  · rw [Cert.ReferenceIdeal.Hand.mapRef_eq, (hagree c).2, starts_eq, ends_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
